-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x4099x512 : Shape := ⟨4, ![8, 1, 4099, 512]⟩
abbrev S8x4099 : Shape := ⟨2, ![8, 4099]⟩
abbrev S_ : Shape := ⟨0, ![]⟩

class Facts : Prop where
  bcast_S_S8x1x4099x512 : S_.BroadcastsInDim S8x1x4099x512 (![] : Fin 0 → Fin S8x1x4099x512.rank)
  reducesTo_S8x1x4099x512_S_d0_1_2_3 : S8x1x4099x512.ReducesTo [0, 1, 2, 3] S_
  h_S_ : 0 < S_.numel
  bcast_S_S8x4099 : S_.BroadcastsInDim S8x4099 (![] : Fin 0 → Fin S8x4099.rank)
  reducesTo_S8x4099_S_d0_1 : S8x4099.ReducesTo [0, 1] S_

variable [Facts]

def fn {F : FTy → Type} [FloatOps F] (main_arg0 : FVec F S8x1x4099x512 .f32) (main_arg1 : FVec F S8x4099 .f32) : IVec S_ 1 :=
  let main_v0 : FVec F S8x1x4099x512 .f32 := Host.absf main_arg0
  let main_cst : FVec F S_ .f32 := constant S_ .f32 0x7F800000#32
  let main_v1 : FVec F S8x1x4099x512 .f32 := broadcastInDim S8x1x4099x512 ![] bcast_S_S8x1x4099x512 main_cst
  let main_v2 : IVec S8x1x4099x512 1 := cmpf .olt main_v0 main_v1
  let main_c : IVec S_ 1 := constantI S_ 1 1#1
  let main_v3 : IVec S_ 1 := (fun x v => Host.reduce IntOp.andi x v reducesTo_S8x1x4099x512_S_d0_1_2_3 h_S_) main_v2 main_c
  let main_v4 : FVec F S8x4099 .f32 := Host.absf main_arg1
  let main_cst_0 : FVec F S_ .f32 := constant S_ .f32 0x7F800000#32
  let main_v5 : FVec F S8x4099 .f32 := broadcastInDim S8x4099 ![] bcast_S_S8x4099 main_cst_0
  let main_v6 : IVec S8x4099 1 := cmpf .olt main_v4 main_v5
  let main_c_1 : IVec S_ 1 := constantI S_ 1 1#1
  let main_v7 : IVec S_ 1 := (fun x v => Host.reduce IntOp.andi x v reducesTo_S8x4099_S_d0_1 h_S_) main_v6 main_c_1
  let main_v8 : IVec S_ 1 := andi main_v3 main_v7
  main_v8
-- ==== Kernel.lean ====
abbrev S8x1x4099x512 : Shape := ⟨4, ![8, 1, 4099, 512]⟩
abbrev S8x4099 : Shape := ⟨2, ![8, 4099]⟩
abbrev S8x4099x1 : Shape := ⟨3, ![8, 4099, 1]⟩
abbrev S8x1x4096x512 : Shape := ⟨4, ![8, 1, 4096, 512]⟩
abbrev S1x1x4099x128 : Shape := ⟨4, ![1, 1, 4099, 128]⟩
abbrev S1x4099x1 : Shape := ⟨3, ![1, 4099, 1]⟩
abbrev S1x1x4096x128 : Shape := ⟨4, ![1, 1, 4096, 128]⟩
abbrev S4099x128 : Shape := ⟨2, ![4099, 128]⟩
abbrev S4099x1 : Shape := ⟨2, ![4099, 1]⟩
abbrev S4096x128 : Shape := ⟨2, ![4096, 128]⟩

abbrev nBuf : Space → Nat
  | .hbm => 4
  | .vmem => 6
  | .smem => 0
  | _ => 0

abbrev bufTy : (tb : Table) → Fin (tcTables nBuf tb) → BufTy
  | .hbm, ⟨0, _⟩ => ⟨S8x1x4099x512, .f32⟩
  | .hbm, ⟨1, _⟩ => ⟨S8x4099, .f32⟩
  | .hbm, ⟨2, _⟩ => ⟨S8x4099x1, .f32⟩
  | .hbm, ⟨3, _⟩ => ⟨S8x1x4096x512, .f32⟩
  | .local _ .vmem, ⟨0, _⟩ => ⟨S1x1x4099x128, .f32⟩
  | .local _ .vmem, ⟨1, _⟩ => ⟨S1x1x4099x128, .f32⟩
  | .local _ .vmem, ⟨2, _⟩ => ⟨S1x4099x1, .f32⟩
  | .local _ .vmem, ⟨3, _⟩ => ⟨S1x4099x1, .f32⟩
  | .local _ .vmem, ⟨4, _⟩ => ⟨S1x1x4096x128, .f32⟩
  | .local _ .vmem, ⟨5, _⟩ => ⟨S1x1x4096x128, .f32⟩
  | _, _ => ⟨S8x1x4099x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1x4099x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4099x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S8x4099_S8x4099x1_0_1 : S8x4099.BroadcastsInDim S8x4099x1 (![0, 1] : Fin 2 → Fin S8x4099x1.rank)
  inb_S1x1x4099x128_S1x1x4099x128_0_0_0_0 : ∀ a, (![0, 0, 0, 0] : Fin 4 → Nat) a + S1x1x4099x128.size a ≤ S1x1x4099x128.size a
  h_S1x1x4099x128 : 0 < S1x1x4099x128.numel
  shapeCasts_S1x1x4099x128_S4099x128 : S1x1x4099x128.ShapeCasts S4099x128
  inb_S1x4099x1_S1x4099x1_0_0_0 : ∀ a, (![0, 0, 0] : Fin 3 → Nat) a + S1x4099x1.size a ≤ S1x4099x1.size a
  h_S1x4099x1 : 0 < S1x4099x1.numel
  shapeCasts_S1x4099x1_S4099x1 : S1x4099x1.ShapeCasts S4099x1
  broadcasts_S4099x1_S4099x128 : S4099x1.Broadcasts S4099x128
  slices_S4099x128_o0_0_S4096x128 : S4099x128.Slices ![0, 0] S4096x128
  slices_S4099x128_o1_0_S4096x128 : S4099x128.Slices ![1, 0] S4096x128
  slices_S4099x128_o2_0_S4096x128 : S4099x128.Slices ![2, 0] S4096x128
  slices_S4099x128_o3_0_S4096x128 : S4099x128.Slices ![3, 0] S4096x128
  inb_S1x1x4096x128_S1x1x4096x128_0_0_0_0 : ∀ a, (![0, 0, 0, 0] : Fin 4 → Nat) a + S1x1x4096x128.size a ≤ S1x1x4096x128.size a
  h_S1x1x4096x128 : 0 < S1x1x4096x128.numel
  shapeCasts_S1x1x4096x128_S4096x128 : S1x1x4096x128.ShapeCasts S4096x128
  shapeCasts_S4096x128_S1x1x4096x128 : S4096x128.ShapeCasts S1x1x4096x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4099x128.size a ≤ S8x1x4099x512.size a
  hwx0_0 : ∀ i : grid0.Coords, EltTy.bits .f32 = 32 ∨ (Rect.block (s := S8x1x4099x512) S1x1x4099x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4099x1.size a ≤ S8x4099x1.size a
  hwx0_1 : ∀ i : grid0.Coords, EltTy.bits .f32 = 32 ∨ (Rect.block (s := S8x4099x1) S1x4099x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x128.size a ≤ S8x1x4096x512.size a
  hwx0_2 : ∀ i : grid0.Coords, EltTy.bits .f32 = 32 ∨ (Rect.block (s := S8x1x4096x512) S1x1x4096x128.size (cc0_transform_2 i) (hinb0_2 i)).WholeWords (EltTy.packing .f32)

variable [Facts₀]

abbrev win0_0 : Pipeline.Window sig grid0 :=
  Pipeline.Window.ofSpec (Memref.whole main_arg0) S1x1x4099x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4099x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x1x4099x512 : Shape := ⟨4, ![8, 1, 4099, 512]⟩
abbrev S8x4099 : Shape := ⟨2, ![8, 4099]⟩
abbrev S8x1x4099x1 : Shape := ⟨4, ![8, 1, 4099, 1]⟩
abbrev S8x1x4096x512 : Shape := ⟨4, ![8, 1, 4096, 512]⟩

abbrev nBuf : Space → Nat
  | .hbm => 12
  | .vmem => 0
  | .smem => 0
  | _ => 0

abbrev bufTy : (tb : Table) → Fin (tcTables nBuf tb) → BufTy
  | .hbm, ⟨0, _⟩ => ⟨S8x1x4099x512, .f32⟩
  | .hbm, ⟨1, _⟩ => ⟨S8x4099, .f32⟩
  | .hbm, ⟨2, _⟩ => ⟨S8x1x4099x1, .f32⟩
  | .hbm, ⟨3, _⟩ => ⟨S8x1x4099x512, .f32⟩
  | .hbm, ⟨4, _⟩ => ⟨S8x1x4099x512, .f32⟩
  | .hbm, ⟨5, _⟩ => ⟨S8x1x4096x512, .f32⟩
  | .hbm, ⟨6, _⟩ => ⟨S8x1x4096x512, .f32⟩
  | .hbm, ⟨7, _⟩ => ⟨S8x1x4096x512, .f32⟩
  | .hbm, ⟨8, _⟩ => ⟨S8x1x4096x512, .f32⟩
  | .hbm, ⟨9, _⟩ => ⟨S8x1x4096x512, .f32⟩
  | .hbm, ⟨10, _⟩ => ⟨S8x1x4096x512, .f32⟩
  | .hbm, ⟨11, _⟩ => ⟨S8x1x4096x512, .f32⟩
  | _, _ => ⟨S8x1x4099x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  bcast_S8x4099_S8x1x4099x1_0_2 : S8x4099.BroadcastsInDim S8x1x4099x1 (![0, 2] : Fin 2 → Fin S8x1x4099x1.rank)
  bcast_S8x1x4099x1_S8x1x4099x512_0_1_2_3 : S8x1x4099x1.BroadcastsInDim S8x1x4099x512 (![0, 1, 2, 3] : Fin 4 → Fin S8x1x4099x512.rank)
  slices_S8x1x4099x512_S8x1x4096x512_0_0_0_0 : S8x1x4099x512.Slices ![0, 0, 0, 0] S8x1x4096x512
  slices_S8x1x4099x512_S8x1x4096x512_0_0_1_0 : S8x1x4099x512.Slices ![0, 0, 1, 0] S8x1x4096x512
  slices_S8x1x4099x512_S8x1x4096x512_0_0_2_0 : S8x1x4099x512.Slices ![0, 0, 2, 0] S8x1x4096x512
  slices_S8x1x4099x512_S8x1x4096x512_0_0_3_0 : S8x1x4099x512.Slices ![0, 0, 3, 0] S8x1x4096x512

variable [Facts₀]

class Facts : Prop extends Facts₀ where

variable [Facts]
-- ==== Proof.WindowSum.lean ====
/-
  The weighted sliding-window sum, as ONE function of the two argument arrays.

  The arguments are a padded sequence `x : [8, 1, 4099, 512]` (batch, a unit axis, 4096 + 3 rows, 512 features)
  and one weight per row `a : [8, 4099]`. Every row is first scaled by its weight,
      w[b, r, h] = x[b, 0, r, h] · a[b, r],
  and output row `i` is the sum of the four consecutive weighted rows that start at `i`, added left to right:
      out[b, 0, i, h] = ((w[b, i, h] + w[b, i+1, h]) + w[b, i+2, h]) + w[b, i+3, h],      0 ≤ i < 4096.
  A window that starts at one of the 4096 output rows ends at row `i + 3 ≤ 4098`, inside the 4099 padded rows.

  Both programs compute exactly this term: the same product (sequence entry first, weight second) and the
  same association of the three additions. So no law of the extended reals is needed to join them, and the
  function is stated for any float family `F`.
-/
import Idealize.ShloMosaic.PureOps
import Idealize.ShloMosaic.Lib.ValueIdx

noncomputable section

namespace Cert.WindowSum

open Idealize.ShloMosaic Idealize.ShloMosaic.ValueIdx

variable {F : FTy → Type} [FloatOps F]

/-- The padded sequence `[8, 1, 4099, 512]`. -/
abbrev SeqShape : Shape := ⟨4, ![8, 1, 4099, 512]⟩
/-- One weight per batch entry and padded row, `[8, 4099]`. -/
abbrev WeightShape : Shape := ⟨2, ![8, 4099]⟩
/-- The result `[8, 1, 4096, 512]`. -/
abbrev OutShape : Shape := ⟨4, ![8, 1, 4096, 512]⟩

/-- Row `i + k` of the padded axis, for an output row `i` and a window offset `k ≤ 3`. -/
abbrev shifted (i : Fin 4096) (k : Nat) (hk : k ≤ 3) : Fin 4099 := ⟨i.val + k, by have := i.isLt; omega⟩

/-- One weighted entry: `x[b, 0, r, h] · a[b, r]`. -/
def weighted (x : SeqShape.Idx → F .f32) (a : WeightShape.Idx → F .f32) (b : Fin 8) (r : Fin 4099) (h : Fin 512) : F .f32 :=
  FloatOps.mulf (x (ix4 b (0 : Fin 1) r h)) (a (ix2 b r))

/-- A weighted entry depends on its three coordinates only through their values. -/
theorem weighted_congr (x : SeqShape.Idx → F .f32) (a : WeightShape.Idx → F .f32) {b b' : Fin 8} {r r' : Fin 4099} {h h' : Fin 512}
    (hb : b.val = b'.val) (hr : r.val = r'.val) (hh : h.val = h'.val) : weighted x a b r h = weighted x a b' r' h' := by
  obtain rfl := Fin.ext hb
  obtain rfl := Fin.ext hr
  obtain rfl := Fin.ext hh
  rfl

/-- The four-row window sum at batch entry `b`, output row `i`, feature `h`, added left to right. -/
def windowSumAt (x : SeqShape.Idx → F .f32) (a : WeightShape.Idx → F .f32) (b : Fin 8) (i : Fin 4096) (h : Fin 512) : F .f32 :=
  FloatOps.addf (FloatOps.addf (FloatOps.addf
    (weighted x a b (shifted i 0 (by omega)) h)
    (weighted x a b (shifted i 1 (by omega)) h))
    (weighted x a b (shifted i 2 (by omega)) h))
    (weighted x a b (shifted i 3 (by omega)) h)

/-- The window sum depends on its three coordinates only through their values. -/
theorem windowSumAt_congr (x : SeqShape.Idx → F .f32) (a : WeightShape.Idx → F .f32) {b b' : Fin 8} {i i' : Fin 4096} {h h' : Fin 512}
    (hb : b.val = b'.val) (hi : i.val = i'.val) (hh : h.val = h'.val) : windowSumAt x a b i h = windowSumAt x a b' i' h' := by
  obtain rfl := Fin.ext hb
  obtain rfl := Fin.ext hi
  obtain rfl := Fin.ext hh
  rfl

/-- The whole result array: the window sum at each index's batch, row and feature coordinates (the unit axis
    carries no information). -/
def windowSum (x : SeqShape.Idx → F .f32) (a : WeightShape.Idx → F .f32) : OutShape.Idx → F .f32 := fun j =>
  windowSumAt x a ⟨(j 0).val, (j 0).isLt⟩ ⟨(j 2).val, (j 2).isLt⟩ ⟨(j 3).val, (j 3).isLt⟩

end Cert.WindowSum

end
-- ==== Proof.ReferenceValue.lean ====
/-
  The reference program computes the window sum.

  Its ten operations are: the weights `a : [8, 4099]` broadcast to `[8, 1, 4099, 1]` and then to
  `[8, 1, 4099, 512]`; the product with the padded sequence, `w = x · a`, entry by entry; the four slices
  `w[:, :, k : k + 4096, :]` for `k = 0, 1, 2, 3`; and three additions, left to right. Read at an index
  `(b, 0, i, h)` each slice is `w[b, 0, k + i, h] = x[b, 0, k + i, h] · a[b, k + i]`, so the last stage is the
  window sum there. Nothing here depends on the float family.
-/
import proofs.«126175_j79491254714439_1_alg».proof.Proof.Gen.ReferenceIdeal.Read
import proofs.«126175_j79491254714439_1_alg».proof.Proof.WindowSum

noncomputable section

namespace Cert.ReferenceIdeal.WindowValue

open Cert.ReferenceIdeal Cert.ReferenceIdeal.Read Idealize.ShloMosaic Idealize.ShloMosaic.ValueIdx Cert.WindowSum

variable {F : FTy → Type} [FloatOps F]

/-- The product stage at an index `(b, 0, r, h)` is the weighted entry `x[b, 0, r, h] · a[b, r]`: the two
    broadcasts read the weight at the index's batch and row coordinates, and the unit axis's coordinate is `0`. -/
theorem product_at (x0 : (⟨S8x1x4099x512, .f32⟩ : BufTy).Contents (Elt F)) (x1 : (⟨S8x4099, .f32⟩ : BufTy).Contents (Elt F))
    (i : S8x1x4099x512.Idx) :
    val_main_v2 (F := F) x0 x1 i
      = weighted x0 x1 ⟨(i 0).val, (i 0).isLt⟩ ⟨(i 2).val, (i 2).isLt⟩ ⟨(i 3).val, (i 3).isLt⟩ := by
  rw [val_main_v2_apply, val_main_v1_apply, val_main_v0_apply]
  have h1 : (i 1).val < 1 := (i 1).isLt
  have e0 : i = ix4 (⟨(i 0).val, (i 0).isLt⟩ : Fin 8) (0 : Fin 1) (⟨(i 2).val, (i 2).isLt⟩ : Fin 4099) (⟨(i 3).val, (i 3).isLt⟩ : Fin 512) := by
    funext a; apply Fin.ext
    match a with
    | ⟨0, _⟩ => rfl
    | ⟨1, _⟩ => show (i 1).val = 0; omega
    | ⟨2, _⟩ => rfl
    | ⟨3, _⟩ => rfl
  have e1 : idx_main_v0 (idx_main_v1 i) = ix2 (⟨(i 0).val, (i 0).isLt⟩ : Fin 8) (⟨(i 2).val, (i 2).isLt⟩ : Fin 4099) := by
    funext a; apply Fin.ext
    match a with
    | ⟨0, _⟩ => rfl
    | ⟨1, _⟩ => rfl
  rw [e1]
  unfold weighted
  exact congrArg (fun z => FloatOps.mulf (x0 z) (x1 (ix2 (⟨(i 0).val, (i 0).isLt⟩ : Fin 8) (⟨(i 2).val, (i 2).isLt⟩ : Fin 4099)))) e0

/-- The product stage at an index whose row is `k` past output row `j 2`, and whose batch and feature coordinates are
    `j`'s: the weighted entry of the window sum's term `k`. -/
theorem product_shifted (k : Nat) (hk : k ≤ 3) (x0 : (⟨S8x1x4099x512, .f32⟩ : BufTy).Contents (Elt F)) (x1 : (⟨S8x4099, .f32⟩ : BufTy).Contents (Elt F))
    (j : S8x1x4096x512.Idx) (i : S8x1x4099x512.Idx)
    (h0 : (i 0).val = (j 0).val) (h2 : (i 2).val = k + (j 2).val) (h3 : (i 3).val = (j 3).val) :
    val_main_v2 (F := F) x0 x1 i
      = weighted x0 x1 ⟨(j 0).val, (j 0).isLt⟩ (shifted ⟨(j 2).val, (j 2).isLt⟩ k hk) ⟨(j 3).val, (j 3).isLt⟩ :=
  (product_at x0 x1 i).trans (weighted_congr x0 x1 h0 (by show (i 2).val = (j 2).val + k; omega) h3)

/-- THE REFERENCE'S LAST STAGE IS THE WINDOW SUM: the three additions of the four slices, each slice read at
    the index shifted by its offset along the row axis. -/
theorem reference_eq (x0 : (⟨S8x1x4099x512, .f32⟩ : BufTy).Contents (Elt F)) (x1 : (⟨S8x4099, .f32⟩ : BufTy).Contents (Elt F)) :
    val_main_v9 (F := F) x0 x1 = windowSum x0 x1 := by
  funext j
  rw [val_main_v9_apply, val_main_v7_apply, val_main_v5_apply, val_main_v3_apply, val_main_v4_apply, val_main_v6_apply,
    val_main_v8_apply]
  rw [product_shifted 0 (by omega) x0 x1 j (idx_main_v3 j) rfl (by show (j 2).val = 0 + (j 2).val; omega) rfl,
    product_shifted 1 (by omega) x0 x1 j (idx_main_v4 j) rfl rfl rfl,
    product_shifted 2 (by omega) x0 x1 j (idx_main_v6 j) rfl rfl rfl,
    product_shifted 3 (by omega) x0 x1 j (idx_main_v8 j) rfl rfl rfl]
  rfl

end Cert.ReferenceIdeal.WindowValue

end
-- ==== Proof.KernelBlock.lean ====
/-
  What the kernel body stores for one block, read at an index.

  At a grid point the body loads a block `P0 : [1, 1, 4099, 128]` of the padded sequence (one batch entry, all
  4099 rows, 128 of the features) and the column `P1 : [1, 4099, 1]` of that batch entry's weights. It drops the
  unit axes, broadcasts the column along the 128 lanes and multiplies: the block of weighted rows
      wb[r, q] = P0[0, 0, r, q] · P1[0, r, 0].
  It then adds the four row-shifted slices `wb[k : k + 4096, :]`, `k = 0, 1, 2, 3`, left to right, and stores the
  sum with the two unit axes put back. So the stored block at `(0, 0, p, q)` is
      ((wb[p, q] + wb[p + 1, q]) + wb[p + 2, q]) + wb[p + 3, q].
  If the two loads are the blocks of arrays `X` and `a` at batch entry `b` and feature tile `f`, this is the
  window sum of `X` and `a` at `(b, p, 128 f + q)`. Everything here is about variables of the literal block
  shapes, for any float family.
-/
import proofs.«126175_j79491254714439_1_alg».proof.Proof.Gen.KernelIdeal.Skeleton
import proofs.«126175_j79491254714439_1_alg».proof.Proof.WindowSum
import Idealize.ShloMosaic.Lib.Pipeline.Value
import Idealize.ShloMosaic.Lib.ValueIdx

noncomputable section

namespace Cert.KernelIdeal.WindowBlock

open Cert.KernelIdeal Cert.KernelIdeal.Gen Idealize.ShloMosaic Idealize.ShloMosaic.ValueIdx Cert.WindowSum

variable {F : FTy → Type} [FloatOps F]

/-- The block of weighted rows `[4099, 128]`: the sequence block without its unit axes, times the weight column
    broadcast along the lanes. -/
def weightedBlock (P0 : Vec F S1x1x4099x128 .f32) (P1 : Vec F S1x4099x1 .f32) : FVec F S4099x128 .f32 :=
  mulf (shapeCast S4099x128 P0 shapeCasts_S1x1x4099x128_S4099x128)
    (broadcastTo S4099x128 (shapeCast S4099x1 P1 shapeCasts_S1x4099x1_S4099x1) broadcasts_S4099x1_S4099x128)

/-- One entry of it: row `r`, lane `q` is `P0[0, 0, r, q] · P1[0, r, 0]`. Dropping unit axes keeps the row-major
    position; the lane broadcast reads the column at lane `0`. -/
theorem weightedBlock_at (P0 : Vec F S1x1x4099x128 .f32) (P1 : Vec F S1x4099x1 .f32) (r : Fin 4099) (q : Fin 128) :
    weightedBlock P0 P1 (ix2 r q)
      = FloatOps.mulf (P0 (ix4 (0 : Fin 1) (0 : Fin 1) r q)) (P1 (ix3 (0 : Fin 1) r (0 : Fin 1))) := by
  unfold weightedBlock
  exact congrArg₂ FloatOps.mulf
    (shapeCast_apply P0 _ (ix2 r q) (ix4 (0 : Fin 1) (0 : Fin 1) r q) (by
      rw [Shape.rowMajor_val_four, Shape.rowMajor_val_two]
      show ((0 * 1 + 0) * 4099 + r.val) * 128 + q.val = r.val * 128 + q.val
      omega))
    ((broadcastTo_apply _ _ (ix2 r q) (ix2 r (0 : Fin 1)) (fun a => match a with
        | ⟨0, _⟩ => by show r.val = if (4099 : Nat) = 1 then 0 else r.val; rw [if_neg (by decide)]
        | ⟨1, _⟩ => by show 0 = if (1 : Nat) = 1 then 0 else q.val; rw [if_pos rfl])).trans
      (shapeCast_apply P1 _ (ix2 r (0 : Fin 1)) (ix3 (0 : Fin 1) r (0 : Fin 1)) (by
        rw [Shape.rowMajor_val_three, Shape.rowMajor_val_two]
        show (0 * 4099 + r.val) * 1 + 0 = r.val * 1 + 0
        omega)))

/-- The slice that starts `k` rows down, read at `(p, q)`, is the weighted block at row `p + k`. -/
theorem slice_at (P0 : Vec F S1x1x4099x128 .f32) (P1 : Vec F S1x4099x1 .f32) (k : Nat) (hk : k ≤ 3)
    (hs : S4099x128.Slices ![k, 0] S4096x128) (p : Fin 4096) (q : Fin 128) :
    extractStridedSlice S4096x128 ![k, 0] (weightedBlock P0 P1) hs (ix2 p q)
      = FloatOps.mulf (P0 (ix4 (0 : Fin 1) (0 : Fin 1) (shifted p k hk) q)) (P1 (ix3 (0 : Fin 1) (shifted p k hk) (0 : Fin 1))) :=
  (extractStridedSlice_apply ![k, 0] (weightedBlock P0 P1) hs (ix2 p q) (ix2 (shifted p k hk) q) (fun a => match a with
      | ⟨0, _⟩ => by show p.val + k = k + p.val; omega
      | ⟨1, _⟩ => by show q.val = 0 + q.val; omega)).trans
    (weightedBlock_at P0 P1 (shifted p k hk) q)

/-- The stored value as the body's tree of vector operations over the weighted block. -/
theorem payload_eq (P0 : Vec F S1x1x4099x128 .f32) (P1 : Vec F S1x4099x1 .f32) :
    k0_pay1 P0 P1 = shapeCast S1x1x4096x128
      (addf (addf (addf
        (extractStridedSlice S4096x128 ![0, 0] (weightedBlock P0 P1) slices_S4099x128_o0_0_S4096x128)
        (extractStridedSlice S4096x128 ![1, 0] (weightedBlock P0 P1) slices_S4099x128_o1_0_S4096x128))
        (extractStridedSlice S4096x128 ![2, 0] (weightedBlock P0 P1) slices_S4099x128_o2_0_S4096x128))
        (extractStridedSlice S4096x128 ![3, 0] (weightedBlock P0 P1) slices_S4099x128_o3_0_S4096x128))
      shapeCasts_S4096x128_S1x1x4096x128 := rfl

/-- THE STORED BLOCK IS A BLOCK OF THE WINDOW SUM. If `P0` holds rows of `X` at batch entry `b` and features
    `128 f + q`, and `P1` holds the weights of batch entry `b`, the stored value at `(0, 0, p, q)` is the window sum of
    `X` and `a` at batch entry `b`, row `p`, feature `128 f + q`. -/
theorem payload_window (X : SeqShape.Idx → F .f32) (a : WeightShape.Idx → F .f32)
    (P0 : Vec F S1x1x4099x128 .f32) (P1 : Vec F S1x4099x1 .f32) (b : Fin 8) (f : Fin 4)
    (hP0 : ∀ (r : Fin 4099) (q : Fin 128),
      P0 (ix4 (0 : Fin 1) (0 : Fin 1) r q) = X (ix4 b (0 : Fin 1) r ⟨f.val * 128 + q.val, by have := f.isLt; have := q.isLt; omega⟩))
    (hP1 : ∀ r : Fin 4099, P1 (ix3 (0 : Fin 1) r (0 : Fin 1)) = a (ix2 b r))
    (p : Fin 4096) (q : Fin 128) :
    k0_pay1 P0 P1 (ix4 (0 : Fin 1) (0 : Fin 1) p q)
      = windowSumAt X a b p ⟨f.val * 128 + q.val, by have := f.isLt; have := q.isLt; omega⟩ := by
  rw [payload_eq]
  refine (shapeCast_apply _ _ (ix4 (0 : Fin 1) (0 : Fin 1) p q) (ix2 p q) (by
    rw [Shape.rowMajor_val_two, Shape.rowMajor_val_four]
    show p.val * 128 + q.val = ((0 * 1 + 0) * 4096 + p.val) * 128 + q.val
    omega)).trans ?_
  unfold windowSumAt weighted
  exact congrArg₂ FloatOps.addf (congrArg₂ FloatOps.addf (congrArg₂ FloatOps.addf
    ((slice_at P0 P1 0 (by omega) _ p q).trans (congrArg₂ FloatOps.mulf (hP0 _ q) (hP1 _)))
    ((slice_at P0 P1 1 (by omega) _ p q).trans (congrArg₂ FloatOps.mulf (hP0 _ q) (hP1 _))))
    ((slice_at P0 P1 2 (by omega) _ p q).trans (congrArg₂ FloatOps.mulf (hP0 _ q) (hP1 _))))
    ((slice_at P0 P1 3 (by omega) _ p q).trans (congrArg₂ FloatOps.mulf (hP0 _ q) (hP1 _)))

end Cert.KernelIdeal.WindowBlock

end
-- ==== Proof.KernelArray.lean ====
/-
  The kernel's result array is the window sum of its two arguments.

  The pallas_call runs over a grid of 8 × 4 points `(b, f)`: batch entry `b`, feature tile `f` of 128 lanes. At a
  point it stages block `(b, 0, 0, f)` of the padded sequence (all 4099 rows), block `(b, 0, 0)` of the weight
  column `[8, 4099, 1]` — which the one host operation before the region makes from the weights `[8, 4099]` by
  adding a trailing unit axis — and writes back block `(b, 0, 0, f)` of the result, all 4096 rows.
  * An element `(0, 0, r, q)` of the sequence block is the argument at `(b, 0, r, 128 f + q)`; an element
    `(0, r, 0)` of the column block is the weight at `(b, r)`.
  * So what the point writes back is the block of the window sum at `(b, 0, ·, 128 f + ·)` (the stored value
    read at an index, from the block module).
  * The 32 result blocks tile the result array: index `(b, 0, i, h)` lies in the block of the point whose
    block index is `(b, 0, 0, h / 128)`. Hence the whole array ends at the window sum.
  Nothing depends on the float family.
-/
import proofs.«126175_j79491254714439_1_alg».proof.Proof.Gen.KernelIdeal.Frame
import proofs.«126175_j79491254714439_1_alg».proof.Proof.KernelBlock
import Idealize.ShloMosaic.Lib.Pipeline.Value
import Idealize.ShloMosaic.Lib.StableHlo.Run

noncomputable section

namespace Cert.KernelIdeal.WindowValue

open Cert.KernelIdeal Cert.KernelIdeal.Gen Idealize.ShloMosaic Idealize.ShloMosaic.TcCoe Idealize.SL.Sem
open Idealize.ShloMosaic.ValueIdx Cert.WindowSum Cert.KernelIdeal.WindowBlock
open Idealize.ShloMosaic.Pipeline (Dat)

variable {F : FTy → Type} [FloatOps F]
variable (m : (ℓ : Loc nD τ sig) → Buf (Elt F) ℓ) (ρ : Dev nD → PrngReg)

/-! ## The arrays the region finds -/

/-- The weight column the region stages is the weights argument with a trailing unit axis: the one host operation
    before the region. -/
theorem column_eq (c : Dev nD) :
    (V m c main_v0 : S8x4099x1.Idx → F .f32)
      = broadcastInDim S8x4099x1 ![0, 1] Gen.bcast_S8x4099_S8x4099x1_0_1 (m ((c : Thread nD τ).loc main_arg1)) := by
  dsimp only [Gen.V, Gen.hostOps0]; after_results

/-- Read at `(b, r, 0)` it is the weight at `(b, r)`. -/
theorem column_at (c : Dev nD) (b : Fin 8) (r : Fin 4099) :
    (V m c main_v0 : S8x4099x1.Idx → F .f32) (ix3 b r (0 : Fin 1)) = m ((c : Thread nD τ).loc main_arg1) (ix2 b r) :=
  (congrFun (column_eq m c) (ix3 b r (0 : Fin 1))).trans
    (broadcastInDim_apply _ Gen.bcast_S8x4099_S8x4099x1_0_1 _ (ix3 b r (0 : Fin 1)) (ix2 b r) (fun a => match a with
      | ⟨0, _⟩ => by show b.val = if (8 : Nat) = 1 then 0 else b.val; rw [if_neg (by decide)]
      | ⟨1, _⟩ => by show r.val = if (4099 : Nat) = 1 then 0 else r.val; rw [if_neg (by decide)]))

/-! ## The blocks at a grid point -/

/-- The block indices of the three windows, decided over the 32 grid points: the sequence block and the result
    block share batch entry and feature tile, the column block the batch entry; every other block index is `0`;
    and the batch entry and the feature tile stay in their ranges. -/
theorem index_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = win0_2.index t (3 : Fin 4)
    ∧ win0_1.index t (0 : Fin 3) = win0_2.index t (0 : Fin 4) ∧ win0_1.index t (1 : Fin 3) = 0
    ∧ win0_1.index t (2 : Fin 3) = 0
    ∧ win0_2.index t (1 : Fin 4) = 0 ∧ win0_2.index t (2 : Fin 4) = 0
    ∧ win0_2.index t (0 : Fin 4) ≤ 7 ∧ win0_2.index t (3 : Fin 4) ≤ 3 :=
  (by decide +kernel : ∀ t : Fin grid0.N, _)

/-- The sequence block and the column block at point `t`, at their literal shapes. -/
abbrev seqBlock (c : Dev nD) (t : Fin cfg0.N) : Vec F S1x1x4099x128 .f32 := iblk m c 0 t
abbrev colBlock (c : Dev nD) (t : Fin cfg0.N) : Vec F S1x4099x1 .f32 := iblk m c 1 t

/-- An element of the sequence block at the point with batch entry `b` and feature tile `f` is the sequence argument at
    `(b, 0, r, 128 f + q)`: a block's coordinate is block index × block size + the coordinate inside the block. -/
theorem seqBlock_at (c : Dev nD) (t : Fin cfg0.N) (b : Fin 8) (f : Fin 4)
    (hb : win0_2.index t (0 : Fin 4) = b.val) (hf : win0_2.index t (3 : Fin 4) = f.val) (r : Fin 4099) (q : Fin 128) :
    seqBlock m c t (ix4 (0 : Fin 1) (0 : Fin 1) r q)
      = m ((c : Thread nD τ).loc main_arg0) (ix4 b (0 : Fin 1) r ⟨f.val * 128 + q.val, by have := f.isLt; have := q.isLt; omega⟩) := by
  obtain ⟨e00, e01, e02, e03, -, -, -, -, -, -, -⟩ := index_facts t
  show V m c main_arg0 (((cfg0.win 0).blk t).view.emb (ix4 (0 : Fin 1) (0 : Fin 1) r q)) = _
  rw [V_main_arg0]
  refine congrArg (m ((c : Thread nD τ).loc main_arg0)) ?_
  funext a; apply Fin.ext
  match a with
  | ⟨0, _⟩ => show win0_0.index t (0 : Fin 4) * 1 + 1 * 0 = b.val; omega
  | ⟨1, _⟩ => show win0_0.index t (1 : Fin 4) * 1 + 1 * 0 = 0; omega
  | ⟨2, _⟩ => show win0_0.index t (2 : Fin 4) * 4099 + 1 * r.val = r.val; omega
  | ⟨3, _⟩ => show win0_0.index t (3 : Fin 4) * 128 + 1 * q.val = f.val * 128 + q.val; omega

/-- An element of the column block at that point is the weight at `(b, r)`. -/
theorem colBlock_at (c : Dev nD) (t : Fin cfg0.N) (b : Fin 8) (hb : win0_2.index t (0 : Fin 4) = b.val) (r : Fin 4099) :
    colBlock m c t (ix3 (0 : Fin 1) r (0 : Fin 1)) = m ((c : Thread nD τ).loc main_arg1) (ix2 b r) := by
  obtain ⟨-, -, -, -, e10, e11, e12, -, -, -, -⟩ := index_facts t
  show (V m c main_v0 : S8x4099x1.Idx → F .f32) (((cfg0.win 1).blk t).view.emb (ix3 (0 : Fin 1) r (0 : Fin 1))) = _
  refine (congrArg (V m c main_v0 : S8x4099x1.Idx → F .f32) (?_ : _ = ix3 b r (0 : Fin 1))).trans (column_at m c b r)
  funext a; apply Fin.ext
  match a with
  | ⟨0, _⟩ => show win0_1.index t (0 : Fin 3) * 1 + 1 * 0 = b.val; omega
  | ⟨1, _⟩ => show win0_1.index t (1 : Fin 3) * 4099 + 1 * r.val = r.val; omega
  | ⟨2, _⟩ => show win0_1.index t (2 : Fin 3) * 1 + 1 * 0 = 0; omega

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- WHAT POINT `t` WRITES BACK is block `t` of the window sum of the two arguments. -/
theorem flushed_eq (c : Dev nD) (t : Fin cfg0.N) :
    (dats m 0 c).flushed 2 t
      = ((cfg0.win 2).blk t).view.read (Elt F)
          (windowSum (m ((c : Thread nD τ).loc main_arg0)) (m ((c : Thread nD τ).loc main_arg1))) := by
  show (cfg0.win 2).cut (grid0.coords t) ((dats m 0 c).after 2 t) = _
  rw [after0_2]
  unfold out0_2
  rw [View.canon_unit_zero zeros4]
  simp only [View.ld_unit_zero (S := S1x1x4099x128) zeros4, View.ld_unit_zero (S := S1x4099x1) zeros3]
  obtain ⟨-, -, -, -, -, -, -, e21, e22, hb, hf⟩ := index_facts t
  funext y
  have hy0 : (y 0).val < 1 := (y 0).isLt
  have hy1 : (y 1).val < 1 := (y 1).isLt
  have hy2 : (y 2).val < 4096 := (y 2).isLt
  have hy3 : (y 3).val < 128 := (y 3).isLt
  have ey : y = ix4 (0 : Fin 1) (0 : Fin 1) (⟨(y 2).val, hy2⟩ : Fin 4096) (⟨(y 3).val, hy3⟩ : Fin 128) := by
    funext a; apply Fin.ext
    match a with
    | ⟨0, _⟩ => show (y 0).val = 0; omega
    | ⟨1, _⟩ => show (y 1).val = 0; omega
    | ⟨2, _⟩ => rfl
    | ⟨3, _⟩ => rfl
  show k0_pay1 (seqBlock m c t) (colBlock m c t) y
    = windowSum (m ((c : Thread nD τ).loc main_arg0)) (m ((c : Thread nD τ).loc main_arg1)) (((cfg0.win 2).blk t).view.emb y)
  refine (congrArg (k0_pay1 (seqBlock m c t) (colBlock m c t)) ey).trans ?_
  refine (payload_window (m ((c : Thread nD τ).loc main_arg0)) (m ((c : Thread nD τ).loc main_arg1))
    (seqBlock m c t) (colBlock m c t) (⟨win0_2.index t (0 : Fin 4), by omega⟩ : Fin 8) (⟨win0_2.index t (3 : Fin 4), by omega⟩ : Fin 4)
    (seqBlock_at m c t _ _ rfl rfl) (colBlock_at m c t _ rfl) (⟨(y 2).val, hy2⟩ : Fin 4096) (⟨(y 3).val, hy3⟩ : Fin 128)).trans ?_
  unfold windowSum
  exact windowSumAt_congr _ _
    (by show win0_2.index t (0 : Fin 4) = win0_2.index t (0 : Fin 4) * 1 + 1 * (y 0).val; omega)
    (by show (y 2).val = win0_2.index t (2 : Fin 4) * 4096 + 1 * (y 2).val; omega)
    (by show win0_2.index t (3 : Fin 4) * 128 + (y 3).val = win0_2.index t (3 : Fin 4) * 128 + 1 * (y 3).val; omega)

/-! ## The result blocks tile the result array -/

/-- An index of the result array is in point `t`'s block iff each coordinate is in the block's range on its axis. -/
theorem mem_blk (t : Fin cfg0.N) (i : S8x1x4096x512.Idx) :
    i ∈ ((cfg0.win 2).blk t).view.set ↔ ∀ a : Fin 4, win0_2.index t a * S1x1x4096x128.size a ≤ (i a).val
      ∧ (i a).val < win0_2.index t a * S1x1x4096x128.size a + S1x1x4096x128.size a := by
  show i ∈ ((View.whole main_v1).slice (win0_2.rect t)).set ↔ _
  rw [View.set_slice_whole, Rect.mem_set_unit]
  exact Iff.rfl

/-- Every batch entry and feature tile is some point's. -/
theorem index_onto : ∀ (q0 : Fin 8) (q3 : Fin 4), ∃ t : Fin cfg0.N, win0_2.index t = ![q0.val, 0, 0, q3.val] :=
  (by decide +kernel : ∀ (q0 : Fin 8) (q3 : Fin 4), ∃ t : Fin grid0.N, win0_2.index t = ![q0.val, 0, 0, q3.val])

/-- Index `(b, 0, i, h)` is in the block of the point with batch entry `b` and feature tile `h / 128`. -/
theorem covered (i : S8x1x4096x512.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 4096 := (i 2).isLt
  have hi3 : (i 3).val < 512 := (i 3).isLt
  obtain ⟨t, ht⟩ := index_onto ⟨(i 0).val, hi0⟩ ⟨(i 3).val / 128, by omega⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = (i 3).val / 128 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 4096 ≤ (i 2).val ∧ (i 2).val < win0_2.index t (2 : Fin 4) * 4096 + 4096; omega
  | ⟨3, _⟩ => show win0_2.index t (3 : Fin 4) * 128 ≤ (i 3).val ∧ (i 3).val < win0_2.index t (3 : Fin 4) * 128 + 128; omega

/-- THE RESULT ARRAY after the run is the window sum of the two arguments. -/
theorem final (c : Dev nD) :
    (dats m 0 c).arrAt 2 cfg0.N
      = windowSum (m ((c : Thread nD τ).loc main_arg0)) (m ((c : Thread nD τ).loc main_arg1)) :=
  (dats m 0 c).arrAt_eq_of_cover 2 _ (fun t _ => flushed_eq m c t) covered

/-! ## The run, read -/

/-- Every weakly fair execution of the kernel's program terminates with the result array at the window sum of the
    two arguments, and the arguments unchanged: the frame run, its result array read by `final`. -/
theorem run : θ_run defs (onTc (τ := τ) (main (F := F))) ⟨m, fun _ => 0, ρ⟩ fun r => ∀ c : Dev nD,
      r.2.mem ((c : Thread nD τ).loc main_v1)
        = windowSum (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.WindowValue

end
-- ==== Proof.lean ====
/-
  The certificate of a weighted sliding-window sum.

  Arguments: a padded sequence `x : f32[8, 1, 4099, 512]` and one weight per padded row `a : f32[8, 4099]`.
  Both programs scale every row by its weight, `w[b, r, h] = x[b, 0, r, h] · a[b, r]`, and return
      out[b, 0, i, h] = ((w[b, i, h] + w[b, i+1, h]) + w[b, i+2, h]) + w[b, i+3, h],    0 ≤ i < 4096.
  The reference does it on whole arrays (two broadcasts, one product, four slices, three additions); the kernel
  does it block by block, over a grid of 8 batch entries × 4 feature tiles of 128 lanes, each point loading all 4099
  rows of its tile and the batch entry's weight column, and writing all 4096 result rows of its tile.

  The two programs apply the same product (sequence entry first, weight second) and add the four terms in the same
  order, so their results are the SAME term of the arguments, index by index: no law of the extended reals joins
  them, and the precondition (finite inputs) is never opened. What is proved by hand is the bookkeeping of indices:
  * the reference's last stage, read at an index, is the window sum (the reference-value module);
  * the value the kernel body stores, read at an index of the block, is the window sum at the array index under it
    (the block module); each point's blocks sit where the window sum expects them, and the 32 result blocks tile the
    result (the array module).
  The three frames are the generated frame runs (the reference's is its generated run with the result dropped); the
  kernel has no idealization rewrite, so `preserves` is `True`.
-/
import proofs.«126175_j79491254714439_1_alg».proof.Defs
import proofs.«126175_j79491254714439_1_alg».proof.Proof.Gen.Kernel
import proofs.«126175_j79491254714439_1_alg».proof.Proof.Gen.Kernel.Skeleton
import proofs.«126175_j79491254714439_1_alg».proof.Proof.Gen.Kernel.Launch
import proofs.«126175_j79491254714439_1_alg».proof.Proof.Gen.Kernel.Points
import proofs.«126175_j79491254714439_1_alg».proof.Proof.Gen.Kernel.Frame
import proofs.«126175_j79491254714439_1_alg».proof.Proof.Gen.KernelIdeal
import proofs.«126175_j79491254714439_1_alg».proof.Proof.Gen.KernelIdeal.Skeleton
import proofs.«126175_j79491254714439_1_alg».proof.Proof.Gen.KernelIdeal.Launch
import proofs.«126175_j79491254714439_1_alg».proof.Proof.Gen.KernelIdeal.Points
import proofs.«126175_j79491254714439_1_alg».proof.Proof.Gen.KernelIdeal.Frame
import proofs.«126175_j79491254714439_1_alg».proof.Proof.Gen.ReferenceIdeal
import proofs.«126175_j79491254714439_1_alg».proof.Proof.Gen.Pre_finite_inputs
import proofs.«126175_j79491254714439_1_alg».proof.Proof.Gen.ReferenceIdeal.Run
import proofs.«126175_j79491254714439_1_alg».proof.Proof.Gen.ReferenceIdeal.Read
import proofs.«126175_j79491254714439_1_alg».proof.Proof.WindowSum
import proofs.«126175_j79491254714439_1_alg».proof.Proof.ReferenceValue
import proofs.«126175_j79491254714439_1_alg».proof.Proof.KernelBlock
import proofs.«126175_j79491254714439_1_alg».proof.Proof.KernelArray
import Idealize.ShloMosaic.Adequacy
import Idealize.ShloMosaic.Init

noncomputable section

namespace Cert.Proof

open Idealize.ShloMosaic Idealize.ShloMosaic.TcCoe Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- Over the extended reals, from memories that agree on the two arguments, the kernel's result array ends at the
    window sum of its arguments and the reference's at the window sum of its own: the same array. -/
theorem algebraic : Cert.algebraic_KernelIdeal_ReferenceIdeal := by
  intro m ρ m' ρ' _ hagree
  refine ⟨_, Cert.KernelIdeal.WindowValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.WindowValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
